-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256x1024 : Shape := ⟨3, ![1024, 256, 1024]⟩
abbrev S512x1024 : Shape := ⟨2, ![512, 1024]⟩
abbrev S_ : Shape := ⟨0, ![]⟩

class Facts : Prop where
  bcast_S_S1024x256x1024 : S_.BroadcastsInDim S1024x256x1024 (![] : Fin 0 → Fin S1024x256x1024.rank)
  reducesTo_S1024x256x1024_S_d0_1_2 : S1024x256x1024.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S1024x256x1024 .f32) (main_arg1 : FVec F S512x1024 .f32) : IVec S_ 1 :=
  let main_v0 : FVec F S1024x256x1024 .f32 := Host.absf main_arg0
  let main_cst : FVec F S_ .f32 := constant S_ .f32 0x7F800000#32
  let main_v1 : FVec F S1024x256x1024 .f32 := broadcastInDim S1024x256x1024 ![] bcast_S_S1024x256x1024 main_cst
  let main_v2 : IVec S1024x256x1024 1 := cmpf .olt main_v0 main_v1
  let main_c : IVec S_ 1 := constantI S_ 1 1#1
  let main_v3 : IVec S_ 1 := (fun x v => Host.reduce IntOp.andi x v reducesTo_S1024x256x1024_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S1024x256x1024 : Shape := ⟨3, ![1024, 256, 1024]⟩
abbrev S512x1024 : Shape := ⟨2, ![512, 1024]⟩
abbrev S_ : Shape := ⟨0, ![]⟩
abbrev S512 : Shape := ⟨1, ![512]⟩
abbrev S1x512 : Shape := ⟨2, ![1, 512]⟩
abbrev S512x1 : Shape := ⟨2, ![512, 1]⟩
abbrev S8 : Shape := ⟨1, ![8]⟩
abbrev S1x8 : Shape := ⟨2, ![1, 8]⟩
abbrev S512x8 : Shape := ⟨2, ![512, 8]⟩
abbrev S1024x8 : Shape := ⟨2, ![1024, 8]⟩
abbrev S16x256x1024 : Shape := ⟨3, ![16, 256, 1024]⟩
abbrev S16x8 : Shape := ⟨2, ![16, 8]⟩
abbrev S16x1024 : Shape := ⟨2, ![16, 1024]⟩
abbrev S16 : Shape := ⟨1, ![16]⟩
abbrev S16x1 : Shape := ⟨2, ![16, 1]⟩
abbrev S16x512 : Shape := ⟨2, ![16, 512]⟩
abbrev S16x512x1 : Shape := ⟨3, ![16, 512, 1]⟩
abbrev S1x512x8 : Shape := ⟨3, ![1, 512, 8]⟩
abbrev S16x512x8 : Shape := ⟨3, ![16, 512, 8]⟩

abbrev nBuf : Space → Nat
  | .hbm => 41
  | .vmem => 7
  | .smem => 0
  | _ => 0

abbrev bufTy : (tb : Table) → Fin (tcTables nBuf tb) → BufTy
  | .hbm, ⟨0, _⟩ => ⟨S1024x256x1024, .f32⟩
  | .hbm, ⟨1, _⟩ => ⟨S512x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S512, .i32⟩
  | .hbm, ⟨7, _⟩ => ⟨S512x1, .i32⟩
  | .hbm, ⟨8, _⟩ => ⟨S8, .i32⟩
  | .hbm, ⟨9, _⟩ => ⟨S1x8, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S_, .i32⟩
  | .hbm, ⟨22, _⟩ => ⟨S512x1, .i32⟩
  | .hbm, ⟨23, _⟩ => ⟨S512x1, .i1⟩
  | .hbm, ⟨24, _⟩ => ⟨S_, .i32⟩
  | .hbm, ⟨25, _⟩ => ⟨S_, .i1⟩
  | .hbm, ⟨26, _⟩ => ⟨S512x1, .i1⟩
  | .hbm, ⟨27, _⟩ => ⟨S512x1, .i1⟩
  | .hbm, ⟨28, _⟩ => ⟨S512x1, .i1⟩
  | .hbm, ⟨29, _⟩ => ⟨S512x1, .i32⟩
  | .hbm, ⟨30, _⟩ => ⟨S512x1, .i32⟩
  | .hbm, ⟨31, _⟩ => ⟨S512x1, .i32⟩
  | .hbm, ⟨32, _⟩ => ⟨S512x8, .i32⟩
  | .hbm, ⟨33, _⟩ => ⟨S512x8, .i32⟩
  | .hbm, ⟨34, _⟩ => ⟨S512x8, .i1⟩
  | .hbm, ⟨35, _⟩ => ⟨S_, .f32⟩
  | .hbm, ⟨36, _⟩ => ⟨S_, .f32⟩
  | .hbm, ⟨37, _⟩ => ⟨S512x8, .f32⟩
  | .hbm, ⟨38, _⟩ => ⟨S512x8, .f32⟩
  | .hbm, ⟨39, _⟩ => ⟨S512x8, .f32⟩
  | .hbm, ⟨40, _⟩ => ⟨S1024x8, .f32⟩
  | .local _ .vmem, ⟨0, _⟩ => ⟨S16x256x1024, .f32⟩
  | .local _ .vmem, ⟨1, _⟩ => ⟨S16x256x1024, .f32⟩
  | .local _ .vmem, ⟨2, _⟩ => ⟨S512x1024, .f32⟩
  | .local _ .vmem, ⟨3, _⟩ => ⟨S1x512, .f32⟩
  | .local _ .vmem, ⟨4, _⟩ => ⟨S512x8, .f32⟩
  | .local _ .vmem, ⟨5, _⟩ => ⟨S16x8, .f32⟩
  | .local _ .vmem, ⟨6, _⟩ => ⟨S16x8, .f32⟩
  | _, _ => ⟨S1024x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_v11 : Ref sig .tc := ⟨.hbm, 39, rfl⟩
abbrev main_v12 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x1024_S512_d1 : S512x1024.ReducesTo [1] S512
  h_S_ : 0 < S_.numel
  shapeCasts_S512_S1x512 : S512.ShapeCasts S1x512
  shapeCasts_S512_S512x1 : S512.ShapeCasts S512x1
  shapeCasts_S8_S1x8 : S8.ShapeCasts S1x8
  bcast_S_S512x1 : S_.BroadcastsInDim S512x1 (![] : Fin 0 → Fin S512x1.rank)
  bcast_S512x1_S512x8_0_1 : S512x1.BroadcastsInDim S512x8 (![0, 1] : Fin 2 → Fin S512x8.rank)
  bcast_S1x8_S512x8_0_1 : S1x8.BroadcastsInDim S512x8 (![0, 1] : Fin 2 → Fin S512x8.rank)
  bcast_S_S512x8 : S_.BroadcastsInDim S512x8 (![] : Fin 0 → Fin S512x8.rank)
  inb_S16x256x1024_S16x256x1024_0_0_0 : ∀ a, (![0, 0, 0] : Fin 3 → Nat) a + S16x256x1024.size a ≤ S16x256x1024.size a
  h_S16x256x1024 : 0 < S16x256x1024.numel
  reduces_S16x256x1024_S16x1024 : S16x256x1024.Reduces [1] S16x1024
  reduces_S16x1024_S16 : S16x1024.Reduces [1] S16
  shapeCasts_S16_S16x1 : S16.ShapeCasts S16x1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  broadcasts_S16x1_S16x512 : S16x1.Broadcasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S16x512 : S1x512.Broadcasts S16x512
  shapeCasts_S16x512_S16x512x1 : S16x512.ShapeCasts S16x512x1
  inb_S512x8_S512x8_0_0 : ∀ a, (![0, 0] : Fin 2 → Nat) a + S512x8.size a ≤ S512x8.size a
  h_S512x8 : 0 < S512x8.numel
  shapeCasts_S512x8_S512x8 : S512x8.ShapeCasts S512x8
  shapeCasts_S512x8_S1x512x8 : S512x8.ShapeCasts S1x512x8
  broadcasts_S16x512x1_S16x512x8 : S16x512x1.Broadcasts S16x512x8
  broadcasts_S1x512x8_S16x512x8 : S1x512x8.Broadcasts S16x512x8
  reduces_S16x512x8_S16x8 : S16x512x8.Reduces [1] S16x8
  inb_S16x8_S16x8_0_0 : ∀ a, (![0, 0] : Fin 2 → Nat) a + S16x8.size a ≤ S16x8.size a
  h_S16x8 : 0 < S16x8.numel
  dot_S16x1024_S512x1024_S16x512_1_1_0_0_n_n_wf : DotDims.WF S16x1024 S512x1024 S16x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S1024x256x1024.size a
  hwx0_0 : ∀ i : grid0.Coords, EltTy.bits .f32 = 32 ∨ (Rect.block (s := S1024x256x1024) S16x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S512x8.size a
  hwx0_3 : ∀ i : grid0.Coords, EltTy.bits .f32 = 32 ∨ (Rect.block (s := S512x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x8.size a ≤ S1024x8.size a
  hwx0_4 : ∀ i : grid0.Coords, EltTy.bits .f32 = 32 ∨ (Rect.block (s := S1024x8) S16x8.size (cc0_transform_4 i) (hinb0_4 i)).WholeWords (EltTy.packing .f32)

variable [Facts₀]

def dot_S16x1024_S512x1024_S16x512_1_1_0_0_n_n : DotDims S16x1024 S512x1024 S16x512 where
  lhsContracting := [1]
  rhsContracting := [1]
  lhsNonContracting := [0]
  rhsNonContracting := [0]
  lhsBatch := []
  rhsBatch := []
  wf := dot_S16x1024_S512x1024_S16x512_1_1_0_0_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S16x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256x1024 : Shape := ⟨3, ![1024, 256, 1024]⟩
abbrev S512x1024 : Shape := ⟨2, ![512, 1024]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S512 : Shape := ⟨1, ![512]⟩
abbrev S1024x512 : Shape := ⟨2, ![1024, 512]⟩
abbrev S1x512 : Shape := ⟨2, ![1, 512]⟩
abbrev S1024x64x8 : Shape := ⟨3, ![1024, 64, 8]⟩
abbrev S1024x8 : Shape := ⟨2, ![1024, 8]⟩

abbrev nBuf : Space → Nat
  | .hbm => 29
  | .vmem => 0
  | .smem => 0
  | _ => 0

abbrev bufTy : (tb : Table) → Fin (tcTables nBuf tb) → BufTy
  | .hbm, ⟨0, _⟩ => ⟨S1024x256x1024, .f32⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S512x1024, .f32⟩
  | .hbm, ⟨12, _⟩ => ⟨S_, .f32⟩
  | .hbm, ⟨13, _⟩ => ⟨S512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1x512, .f32⟩
  | .hbm, ⟨21, _⟩ => ⟨S1024x512, .f32⟩
  | .hbm, ⟨22, _⟩ => ⟨S1024x512, .f32⟩
  | .hbm, ⟨23, _⟩ => ⟨S1024x64x8, .f32⟩
  | .hbm, ⟨24, _⟩ => ⟨S_, .f32⟩
  | .hbm, ⟨25, _⟩ => ⟨S1024x8, .f32⟩
  | .hbm, ⟨26, _⟩ => ⟨S_, .f32⟩
  | .hbm, ⟨27, _⟩ => ⟨S1024x8, .f32⟩
  | .hbm, ⟨28, _⟩ => ⟨S1024x8, .f32⟩
  | _, _ => ⟨S1024x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  reducesTo_S1024x256x1024_S1024x1024_d1 : S1024x256x1024.ReducesTo [1] S1024x1024
  h_S_ : 0 < S_.numel
  bcast_S_S1024x1024 : S_.BroadcastsInDim S1024x1024 (![] : Fin 0 → Fin S1024x1024.rank)
  reducesTo_S1024x1024_S1024_d1 : S1024x1024.ReducesTo [1] S1024
  bcast_S1024_S1024x1_0 : S1024.BroadcastsInDim S1024x1 (![0] : Fin 1 → Fin S1024x1.rank)
  reducesTo_S512x1024_S512_d1 : S512x1024.ReducesTo [1] S512
  bcast_S_S1024x512 : S_.BroadcastsInDim S1024x512 (![] : Fin 0 → Fin S1024x512.rank)
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  shapeCasts_S1024x512_S1024x64x8 : S1024x512.ShapeCasts S1024x64x8
  reducesTo_S1024x64x8_S1024x8_d1 : S1024x64x8.ReducesTo [1] S1024x8
  bcast_S_S1024x8 : S_.BroadcastsInDim S1024x8 (![] : Fin 0 → Fin S1024x8.rank)
  dot_S1024x1024_S512x1024_S1024x512_1_1_0_0_n_n_wf : DotDims.WF S1024x1024 S512x1024 S1024x512 [1] [1] [0] [0] [] []

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

class Facts : Prop extends Facts₀ where

variable [Facts]
-- ==== Proof.KernelBody.lean ====
/-
  The kernel body at one entry of its output block.

  On a block of 16 batch rows the body averages the hidden states over time, multiplies the averaged rows
  with every prototype's weight row (a product that contracts the second axis of BOTH operands), forms the
  scores `2 · (a · w) - ‖a‖² - bsq` against a row `bsq` of squared prototype norms it is handed, and sums
  the scores against a table of weights it is handed, over all 512 prototypes.  `body_apply` reads the
  result at `(b, l)`; the layout steps in between (a column broadcast across columns, a row broadcast
  down rows, a trailing unit axis added and spread) each read one entry of their operand.
-/
import proofs.«181166_j4252017623198_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## Layout steps read at an entry -/

section Layout
variable {A B C : ℕ} {α : Type}

/-- One column spread across the columns: `(a, b)` reads the column's entry in row `a`. -/
theorem spread_col_apply (v : (⟨2, ![A, 1]⟩ : Shape).Idx → α) (h : (⟨2, ![A, 1]⟩ : Shape).Broadcasts ⟨2, ![A, B]⟩)
    (a : Fin A) (b : Fin B) : broadcastTo ⟨2, ![A, B]⟩ v h (ix2 a b) = v (ix2 a (0 : Fin 1)) := by
  refine broadcastTo_apply v h (ix2 a b) (ix2 a (0 : Fin 1)) fun ax => ?_
  match ax with
  | ⟨0, _⟩ =>
    show a.val = if A = 1 then 0 else a.val
    split
    · have := a.isLt; omega
    · rfl
  | ⟨1, _⟩ => show 0 = if (1 : ℕ) = 1 then 0 else b.val; rw [if_pos rfl]

/-- A vector stood up as a column: `(a, 0)` reads the vector at `a`. -/
theorem column_apply (v : (⟨1, ![A]⟩ : Shape).Idx → α) (h : (⟨1, ![A]⟩ : Shape).ShapeCasts ⟨2, ![A, 1]⟩)
    (a : Fin A) : shapeCast ⟨2, ![A, 1]⟩ v h (ix2 a (0 : Fin 1)) = v (ix1 a) :=
  shapeCast_apply v h _ _ (by
    rw [Shape.rowMajor_val_one, Shape.rowMajor_val_two]
    show a.val = a.val * 1 + 0
    omega)

/-- A trailing unit axis added: `(a, b, 0)` reads `(a, b)`. -/
theorem add_last_apply (v : (⟨2, ![A, B]⟩ : Shape).Idx → α) (h : (⟨2, ![A, B]⟩ : Shape).ShapeCasts ⟨3, ![A, B, 1]⟩)
    (a : Fin A) (b : Fin B) : shapeCast ⟨3, ![A, B, 1]⟩ v h (ix3 a b (0 : Fin 1)) = v (ix2 a b) :=
  shapeCast_apply v h _ _ (by
    rw [Shape.rowMajor_val_two, Shape.rowMajor_val_three]
    show a.val * B + b.val = (a.val * B + b.val) * 1 + 0
    omega)

/-- A trailing unit axis spread to extent `C`: `(a, b, c)` reads `(a, b, 0)`. -/
theorem spread_last_apply (v : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ v h (ix3 a b c) = v (ix3 a b (0 : Fin 1)) := by
  refine broadcastTo_apply v h (ix3 a b c) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => show 0 = if (1 : ℕ) = 1 then 0 else c.val; rw [if_pos rfl]

/-- A leading unit axis spread to extent `A`: `(a, b, c)` reads `(0, b, c)`. -/
theorem spread_first_apply (v : (⟨3, ![1, B, C]⟩ : Shape).Idx → α)
    (h : (⟨3, ![1, B, C]⟩ : Shape).Broadcasts ⟨3, ![A, B, C]⟩) (a : Fin A) (b : Fin B) (c : Fin C) :
    broadcastTo ⟨3, ![A, B, C]⟩ v h (ix3 a b c) = v (ix3 (0 : Fin 1) b c) := by
  refine broadcastTo_apply v h (ix3 a b c) (ix3 (0 : Fin 1) b c) fun ax => ?_
  match ax with
  | ⟨0, _⟩ => show 0 = if (1 : ℕ) = 1 then 0 else a.val; rw [if_pos rfl]
  | ⟨1, _⟩ =>
    show b.val = if B = 1 then 0 else b.val
    split
    · have := b.isLt; omega
    · rfl
  | ⟨2, _⟩ =>
    show c.val = if C = 1 then 0 else c.val
    split
    · have := c.isLt; omega
    · rfl

end Layout

/-! ## Sums along one axis -/

section Sums
variable {A B C : ℕ}

/-- The middle axis summed: at `(a, c)` the sum over `t` of the entries `(a, t, c)`. -/
theorem sum_mid_apply (x : FVec Ideal ⟨3, ![A, B, C]⟩ .f32)
    (h : (⟨3, ![A, B, C]⟩ : Shape).Reduces [1] ⟨2, ![A, C]⟩) (hφ : FTy.f32 = FTy.f32 ∨ FTy.f32 = FTy.bf16)
    (hacc : (0x00000000#32 : BitVec 32) = 0x00000000#32) (a : Fin A) (c : Fin C) :
    multiReduction .add [1] ⟨2, ![A, C]⟩ x 0x00000000#32 h hφ hacc (ix2 a c) = ∑ t : Fin B, x (ix3 a t c) :=
  (Ideal.multiReduction_add_single x 0x00000000#32 h hφ hacc (ix2 a c)).trans
    (Finset.sum_congr rfl fun t _ => congrArg x (by
      funext ax; apply Fin.ext
      fin_cases ax <;> rfl))

/-- The last axis of a matrix summed: at `a` the sum over `d` of the entries `(a, d)`. -/
theorem sum_last_apply (x : FVec Ideal ⟨2, ![A, B]⟩ .f32)
    (h : (⟨2, ![A, B]⟩ : Shape).Reduces [1] ⟨1, ![A]⟩) (hφ : FTy.f32 = FTy.f32 ∨ FTy.f32 = FTy.bf16)
    (hacc : (0x00000000#32 : BitVec 32) = 0x00000000#32) (a : Fin A) :
    multiReduction .add [1] ⟨1, ![A]⟩ x 0x00000000#32 h hφ hacc (ix1 a) = ∑ d : Fin B, x (ix2 a d) :=
  (Ideal.multiReduction_add_single x 0x00000000#32 h hφ hacc (ix1 a)).trans
    (Finset.sum_congr rfl fun d _ => congrArg x (by
      funext ax; apply Fin.ext
      fin_cases ax <;> rfl))

end Sums

/-! ## The product that contracts the second axis of both operands -/

theorem lhs_0 (i : S16x512.Idx) (q : dot_S16x1024_S512x1024_S16x512_1_1_0_0_n_n.contr.Idx) :
    (dot_S16x1024_S512x1024_S16x512_1_1_0_0_n_n.lhsIdx i q 0).val = (i 0).val := by
  unfold DotDims.lhsIdx
  rw [dif_neg (show ¬(0 : Fin S16x1024.rank) ∈ dot_S16x1024_S512x1024_S16x512_1_1_0_0_n_n.lhsBatch by decide), dif_pos (show (0 : Fin S16x1024.rank) ∈ dot_S16x1024_S512x1024_S16x512_1_1_0_0_n_n.lhsNonContracting by decide)]
  rfl
theorem lhs_1 (i : S16x512.Idx) (q : dot_S16x1024_S512x1024_S16x512_1_1_0_0_n_n.contr.Idx) :
    (dot_S16x1024_S512x1024_S16x512_1_1_0_0_n_n.lhsIdx i q 1).val = (q ⟨0, by decide⟩).val :=
  dot_S16x1024_S512x1024_S16x512_1_1_0_0_n_n.lhsIdx_val_of_single rfl i q
theorem rhs_0 (i : S16x512.Idx) (q : dot_S16x1024_S512x1024_S16x512_1_1_0_0_n_n.contr.Idx) :
    (dot_S16x1024_S512x1024_S16x512_1_1_0_0_n_n.rhsIdx i q 0).val = (i 1).val := by
  unfold DotDims.rhsIdx
  rw [dif_neg (show ¬(0 : Fin S512x1024.rank) ∈ dot_S16x1024_S512x1024_S16x512_1_1_0_0_n_n.rhsBatch by decide), dif_pos (show (0 : Fin S512x1024.rank) ∈ dot_S16x1024_S512x1024_S16x512_1_1_0_0_n_n.rhsNonContracting by decide)]
  rfl
theorem rhs_1 (i : S16x512.Idx) (q : dot_S16x1024_S512x1024_S16x512_1_1_0_0_n_n.contr.Idx) :
    (dot_S16x1024_S512x1024_S16x512_1_1_0_0_n_n.rhsIdx i q 1).val = (q ⟨0, by decide⟩).val :=
  dot_S16x1024_S512x1024_S16x512_1_1_0_0_n_n.rhsIdx_val_of_single rfl i q

/-- Into the zero splat, at `(b, m)`: row `b` of the left against ROW `m` of the right. -/
theorem rows_product_apply {φ₁ φ₂ : FTy} (l : FVec Ideal S16x1024 φ₁) (r : FVec Ideal S512x1024 φ₂) (b : Fin 16) (m : Fin 512) :
    matmul dot_S16x1024_S512x1024_S16x512_1_1_0_0_n_n none l r (constant S16x512 .f32 0x00000000#32) (ix2 b m)
      = ∑ d : Fin 1024, l (ix2 b d) * r (ix2 m d) := by
  show FloatOps.matmul dot_S16x1024_S512x1024_S16x512_1_1_0_0_n_n none l r (constant S16x512 .f32 0x00000000#32) (ix2 b m) = _
  rw [Ideal.matmul_constant_zero_apply, ← Equiv.sum_comp (contrEquiv1 dot_S16x1024_S512x1024_S16x512_1_1_0_0_n_n 1024 rfl rfl).symm]
  refine Finset.sum_congr rfl fun k _ => ?_
  have hk := contrEquiv1_symm_val dot_S16x1024_S512x1024_S16x512_1_1_0_0_n_n 1024 rfl rfl k
  have el : dot_S16x1024_S512x1024_S16x512_1_1_0_0_n_n.lhsIdx (ix2 b m) ((contrEquiv1 dot_S16x1024_S512x1024_S16x512_1_1_0_0_n_n 1024 rfl rfl).symm k) = ix2 b k := funext fun a => Fin.ext (by
    match a with
    | ⟨0, _⟩ => exact lhs_0 _ _
    | ⟨1, _⟩ => exact (lhs_1 _ _).trans hk)
  have er : dot_S16x1024_S512x1024_S16x512_1_1_0_0_n_n.rhsIdx (ix2 b m) ((contrEquiv1 dot_S16x1024_S512x1024_S16x512_1_1_0_0_n_n 1024 rfl rfl).symm k) = ix2 m k := funext fun a => Fin.ext (by
    match a with
    | ⟨0, _⟩ => exact rhs_0 _ _
    | ⟨1, _⟩ => exact (rhs_1 _ _).trans hk)
  rw [el, er]

/-! ## The body -/

/-- The time average of row `b` of a block, coordinate `d`. -/
def blockMean (x0 : FVec Ideal S16x256x1024 .f32) (b : Fin 16) (d : Fin 1024) : EReal :=
  Ideal.div (∑ t : Fin 256, x0 (ix3 b t d)) (Ideal.ofBits .f32 0x43800000#32)

/-- The averaged block at `(b, d)`. -/
theorem mean_apply (x0 : FVec Ideal S16x256x1024 .f32) (hφ : FTy.f32 = FTy.f32 ∨ FTy.f32 = FTy.bf16)
    (hacc : (0x00000000#32 : BitVec 32) = 0x00000000#32) (b : Fin 16) (d : Fin 1024) :
    divf (multiReduction .add [1] S16x1024 x0 0x00000000#32 reduces_S16x256x1024_S16x1024 hφ hacc)
        (broadcast S16x1024 (FloatOps.ofBits .f32 0x43800000#32)) (ix2 b d) = blockMean x0 b d :=
  congrArg (fun s => Ideal.div s (Ideal.ofBits .f32 0x43800000#32)) (sum_mid_apply x0 _ hφ hacc b d)

/-- The squared norm of each averaged row, stood up as a column and spread across the 512 columns. -/
theorem sqnorm_apply (a : FVec Ideal S16x1024 .f32) (hφ : FTy.f32 = FTy.f32 ∨ FTy.f32 = FTy.bf16)
    (hacc : (0x00000000#32 : BitVec 32) = 0x00000000#32) (b : Fin 16) (m : Fin 512) :
    broadcastTo S16x512 (shapeCast S16x1 (multiReduction .add [1] S16 (mulf a a) 0x00000000#32 reduces_S16x1024_S16 hφ hacc)
        shapeCasts_S16_S16x1) broadcasts_S16x1_S16x512 (ix2 b m)
      = ∑ d : Fin 1024, a (ix2 b d) * a (ix2 b d) :=
  (spread_col_apply _ _ b m).trans ((column_apply _ _ b).trans (sum_last_apply _ _ hφ hacc b))

/-- The row of squared prototype norms, spread down the 16 rows. -/
theorem norms_row_apply (x2 : FVec Ideal S1x512 .f32) (b : Fin 16) (m : Fin 512) :
    broadcastTo S16x512 (shapeCast S1x512 x2 shapeCasts_S1x512_S1x512) broadcasts_S1x512_S16x512 (ix2 b m)
      = x2 (ix2 (0 : Fin 1) m) :=
  (broadcastTo_1b_ab_apply _ _ b m).trans (congrFun (shapeCast_self x2 _) _)

/-- The weight table, given a leading unit axis and spread over the 16 rows. -/
theorem table_apply (x3 : FVec Ideal S512x8 .f32) (b : Fin 16) (m : Fin 512) (l : Fin 8) :
    broadcastTo S16x512x8 (shapeCast S1x512x8 (shapeCast S512x8 x3 shapeCasts_S512x8_S512x8) shapeCasts_S512x8_S1x512x8)
        broadcasts_S1x512x8_S16x512x8 (ix3 b m l) = x3 (ix2 m l) :=
  (spread_first_apply _ _ b m l).trans
    ((shapeCast_ab_1ab_apply _ _ (0 : Fin 1) m l).trans (congrFun (shapeCast_self x3 _) _))

/-- The scores, given a trailing unit axis and spread over the 8 labels. -/
theorem scores_apply (s : FVec Ideal S16x512 .f32) (b : Fin 16) (m : Fin 512) (l : Fin 8) :
    broadcastTo S16x512x8 (shapeCast S16x512x1 s shapeCasts_S16x512_S16x512x1) broadcasts_S16x512x1_S16x512x8 (ix3 b m l)
      = s (ix2 b m) :=
  (spread_last_apply _ _ b m l).trans (add_last_apply _ _ b m)

/-- The body's stored value at `(b, l)`: the scores of row `b` summed against column `l` of the weight table. -/
theorem body_apply (x0 : Vec Ideal S16x256x1024 .f32) (x1 : Vec Ideal S512x1024 .f32) (x2 : Vec Ideal S1x512 .f32)
    (x3 : Vec Ideal S512x8 .f32) (b : Fin 16) (l : Fin 8) :
    k0_pay1 x0 x1 x2 x3 (ix2 b l)
      = ∑ m : Fin 512,
          (((Ideal.ofBits .f32 0x40000000#32 * ∑ d : Fin 1024, blockMean x0 b d * x1 (ix2 m d))
              - ∑ d : Fin 1024, blockMean x0 b d * blockMean x0 b d)
            - x2 (ix2 (0 : Fin 1) m)) * x3 (ix2 m l) := by
  unfold k0_pay1
  refine (sum_mid_apply _ _ _ _ b l).trans (Finset.sum_congr rfl fun m _ => ?_)
  refine (mulf_apply _ _ _).trans (congrArg₂ (· * ·) ((scores_apply _ b m l).trans ?_) (table_apply x3 b m l))
  refine (subf_apply _ _ _).trans (congrArg₂ (· - ·) ((subf_apply _ _ _).trans (congrArg₂ (· - ·) ?_ ?_)) (norms_row_apply x2 b m))
  · refine (mulf_apply _ _ _).trans (congrArg₂ (· * ·) rfl ((rows_product_apply _ _ b m).trans
      (Finset.sum_congr rfl fun d _ => congrArg₂ (· * ·) (mean_apply x0 _ _ b d) rfl)))
  · refine (sqnorm_apply _ _ _ b m).trans (Finset.sum_congr rfl fun d _ =>
      congrArg₂ (· * ·) (mean_apply x0 _ _ b d) (mean_apply x0 _ _ b d))

end Cert.KernelIdeal.Body

end
-- ==== Proof.ProtoHead.lean ====
/-
  The prototype head, as one function of the two argument arrays.

  For a batch row `b` the hidden states are averaged over time, `a b d = (∑ t, h b t d) / 256`; the
  score of prototype `m` is minus the squared distance from `a b` to the prototype's weight row in its
  expanded form, `2 · (a b · w m) - ‖a b‖² - ‖w m‖²`; and label `l`'s output is the mean of the scores of the
  64 prototypes `l, l + 8, l + 16, …` (the flat prototype axis read as 64 rows of 8 labels).

  One program takes that mean as a sum over the 64 strided positions divided by 64; the other multiplies
  every one of the 512 scores by a weight that is 1/64 at the positions congruent to `l` modulo 8 and 0
  elsewhere, and sums all 512 products.  `sum_mul_weight` is the law between the two: the zero terms drop
  (`x · 0 = 0` at every extended real), the remaining positions are re-indexed by `p ↦ l + 8 p`, and the
  non-negative finite factor 1/64 leaves the sum, which holds at the infinities too.
-/
import Idealize.ShloMosaic.Lib.ValueIdx
import Idealize.ShloMosaic.PureOps.Ideal.Laws

noncomputable section

open scoped BigOperators

namespace ProtoHead

open Idealize.ShloMosaic Idealize.ShloMosaic.ValueIdx

/-! ## The constants both programs spell -/

/-- The word `0x42800000` is 64. -/
theorem ofBits_64 : Ideal.ofBits .f32 0x42800000#32 = ((64 : ℝ) : EReal) := by
  simp [Ideal.ofBits, Ideal.ieee, -EReal.coe_mul]; norm_num

/-- The word `0x3C800000` is 1/64, exactly. -/
theorem ofBits_inv64 : Ideal.ofBits .f32 0x3C800000#32 = (((1 : ℝ) / 64 : ℝ) : EReal) := by
  simp [Ideal.ofBits, Ideal.ieee, -EReal.coe_mul]; norm_num

/-! ## The specification -/

/-- Position `l + 8 p` of the flat prototype axis: label `l` of prototype row `p`. -/
def protoAt (p : Fin 64) (l : Fin 8) : Fin 512 := ⟨l.val + 8 * p.val, by have := p.isLt; have := l.isLt; omega⟩

/-- The time average of batch row `b`, coordinate `d`. -/
def pooled (h : (⟨3, ![1024, 256, 1024]⟩ : Shape).Idx → EReal) (b : Fin 1024) (d : Fin 1024) : EReal :=
  Ideal.div (∑ t : Fin 256, h (ix3 b t d)) (Ideal.ofBits .f32 0x43800000#32)

/-- The score of prototype `m` for batch row `b`: `2 · (a · w) - ‖a‖² - ‖w‖²`. -/
def score (h : (⟨3, ![1024, 256, 1024]⟩ : Shape).Idx → EReal) (w : (⟨2, ![512, 1024]⟩ : Shape).Idx → EReal)
    (b : Fin 1024) (m : Fin 512) : EReal :=
  (Ideal.ofBits .f32 0x40000000#32 * (∑ d : Fin 1024, pooled h b d * w (ix2 m d))
      - ∑ d : Fin 1024, pooled h b d * pooled h b d)
    - ∑ d : Fin 1024, w (ix2 m d) * w (ix2 m d)

/-- The result: at `(b, l)` the mean over the 64 prototype rows of the scores at label `l`. -/
def head (h : (⟨3, ![1024, 256, 1024]⟩ : Shape).Idx → EReal) (w : (⟨2, ![512, 1024]⟩ : Shape).Idx → EReal) :
    (⟨2, ![1024, 8]⟩ : Shape).Idx → EReal :=
  fun i => Ideal.div (∑ p : Fin 64, score h w (i 0) (protoAt p (i 1))) (Ideal.ofBits .f32 0x42800000#32)

/-! ## The law -/

/-- A non-negative real factor leaves a finite sum of extended reals. -/
theorem sum_mul_coe_of_nonneg {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- The weight of position `m` for label `l`: 1/64 where `m ≡ l` modulo 8, else 0. -/
def weight (m : Fin 512) (l : Fin 8) : EReal :=
  if m.val % 8 = l.val then Ideal.ofBits .f32 0x3C800000#32 else Ideal.ofBits .f32 0x00000000#32

/-- The weighted sum over all 512 positions is the strided sum over 64 divided by 64. -/
theorem sum_mul_weight (f : Fin 512 → EReal) (l : Fin 8) :
    ∑ m : Fin 512, f m * weight m l
      = Ideal.div (∑ p : Fin 64, f (protoAt p l)) (Ideal.ofBits .f32 0x42800000#32) := by
  rw [ofBits_64, Ideal.div_coe (by norm_num : (64 : ℝ) ≠ 0), ← sum_mul_coe_of_nonneg _ _ _ (by norm_num)]
  have e : (∑ m : Fin 512, f m * weight m l)
      = ∑ x : Fin 64 × Fin 8, f (finProdFinEquiv x) * weight (finProdFinEquiv x) l :=
    (Equiv.sum_comp (finProdFinEquiv (m := 64) (n := 8)) fun m => f m * weight m l).symm
  rw [e, Fintype.sum_prod_type]
  refine Finset.sum_congr rfl fun p _ => ?_
  rw [Finset.sum_eq_single l]
  · have hm : (finProdFinEquiv (p, l) : Fin 512) = protoAt p l := Fin.ext rfl
    rw [hm]
    unfold weight
    rw [if_pos (by show (l.val + 8 * p.val) % 8 = l.val; have := l.isLt; omega), ofBits_inv64]
  · intro r _ hr
    unfold weight
    rw [if_neg (by
      show ¬ (r.val + 8 * p.val) % 8 = l.val
      have := r.isLt; have := l.isLt
      intro h; exact hr (Fin.ext (by omega))), Ideal.ofBits_zero_f32, mul_zero]
  · intro h; exact absurd (Finset.mem_univ l) h

end ProtoHead

end
-- ==== Proof.BlockValue.lean ====
/-
  The body on the blocks of one grid point computes that point's 16 rows of the prototype head.

  Point `T` of the grid is handed rows `16 T … 16 T + 15` of the hidden states, the whole weight matrix, the
  row of squared prototype norms and the table of weights.  Row `b` of the block is batch row `16 T + b`, so
  the block's time averages are the array's, the scores are the specification's scores, and the sum of the
  512 scores against the weights of label `l` is the mean over the 64 prototype rows (`sum_mul_weight`).
-/
import proofs.«181166_j4252017623198_1_alg».proof.Proof.KernelBody
import proofs.«181166_j4252017623198_1_alg».proof.Proof.ProtoHead

noncomputable section

open scoped BigOperators

namespace Cert.KernelIdeal.Body

open Cert.KernelIdeal Cert.KernelIdeal.Gen Idealize.ShloMosaic Idealize.ShloMosaic.ValueIdx

theorem block_value (h : S1024x256x1024.Idx → EReal) (w : S512x1024.Idx → EReal)
    (x0 : Vec Ideal S16x256x1024 .f32) (x1 : Vec Ideal S512x1024 .f32) (x2 : Vec Ideal S1x512 .f32)
    (x3 : Vec Ideal S512x8 .f32) (T : ℕ) (hT : T < 64)
    (h0 : ∀ (b : Fin 16) (s : Fin 256) (d : Fin 1024),
      x0 (ix3 b s d) = h (ix3 (⟨16 * T + b.val, by have := b.isLt; omega⟩ : Fin 1024) s d))
    (h1 : ∀ (q : Fin 512) (d : Fin 1024), x1 (ix2 q d) = w (ix2 q d))
    (h2 : ∀ q : Fin 512, x2 (ix2 (0 : Fin 1) q) = ∑ d : Fin 1024, w (ix2 q d) * w (ix2 q d))
    (h3 : ∀ (q : Fin 512) (l : Fin 8), x3 (ix2 q l) = ProtoHead.weight q l)
    (b : Fin 16) (l : Fin 8) :
    k0_pay1 x0 x1 x2 x3 (ix2 b l)
      = ProtoHead.head h w (ix2 (⟨16 * T + b.val, by have := b.isLt; omega⟩ : Fin 1024) l) := by
  have hm : ∀ d : Fin 1024,
      blockMean x0 b d = ProtoHead.pooled h (⟨16 * T + b.val, by have := b.isLt; omega⟩ : Fin 1024) d := fun d => by
    unfold blockMean ProtoHead.pooled
    simp only [h0]
  rw [body_apply]
  show _ = Ideal.div (∑ p : Fin 64, ProtoHead.score h w (⟨16 * T + b.val, by have := b.isLt; omega⟩ : Fin 1024)
    (ProtoHead.protoAt p l)) (Ideal.ofBits .f32 0x42800000#32)
  rw [← ProtoHead.sum_mul_weight (fun q => ProtoHead.score h w (⟨16 * T + b.val, by have := b.isLt; omega⟩ : Fin 1024) q) l]
  refine Finset.sum_congr rfl fun q _ => ?_
  rw [h2, h3]
  simp only [hm, h1]
  rfl

end Cert.KernelIdeal.Body

end
-- ==== Proof.EntryArrays.lean ====
/-
  What the region finds in the two arrays the program prepares before it.

  The row of squared prototype norms is the weight matrix squared entrywise and summed along each row, from
  the zero word.  The table of weights is built from integers: position `m` (an `iota` over 512) is taken
  modulo 8 by the floored-remainder recipe — the truncated remainder, plus the divisor when the remainder
  is not zero and its sign differs from the divisor's — and compared with the label `l` (an `iota` over 8);
  where they agree the entry is the word of 1/64, elsewhere the zero word.  For `0 ≤ m < 512` the truncated
  remainder by 8 is already `m % 8` and never negative, so the correction never applies: decided over all
  512 × 8 positions.
-/
import proofs.«181166_j4252017623198_1_alg».proof.Proof.Gen.KernelIdeal.Frame
import proofs.«181166_j4252017623198_1_alg».proof.Proof.ProtoHead
import Idealize.ShloMosaic.Lib.StableHlo.Run
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

/-! ## The integer side of the weight table -/

/-- The divisor as the program forms it: 8, or 1 were it zero. -/
def divisorWord : BitVec 32 := Scalar.select (IntOp.cmpi .eq (8#32 : BitVec 32) 0#32) (1#32 : BitVec 32) 8#32

/-- The floored remainder of a word by the divisor, as the program forms it. -/
def flooredRem (x : BitVec 32) : BitVec 32 :=
  Scalar.select
    (IntOp.andi
      (IntOp.cmpi .ne (IntOp.cmpi .slt (IntOp.remsi .host x divisorWord) 0#32) (IntOp.cmpi .slt divisorWord 0#32))
      (IntOp.cmpi .ne (IntOp.remsi .host x divisorWord) 0#32))
    (IntOp.addi (IntOp.remsi .host x divisorWord) divisorWord)
    (IntOp.remsi .host x divisorWord)

/-- For a position below 512 and a label below 8, the comparison is the congruence modulo 8. -/
theorem flooredRem_eq_iff : ∀ (m : Fin 512) (l : Fin 8),
    IntOp.cmpi .eq (flooredRem (BitVec.ofNat 32 m.val)) (BitVec.ofNat 32 l.val) = 1#1 ↔ m.val % 8 = l.val := by
  decide +kernel

/-! ## The two arrays as terms -/

/-- The divisor, as a rank-0 array. -/
def divisor : IVec S_ 32 :=
  select (cmpi .eq (id (constantI S_ 32 8#32)) (constantI S_ 32 0#32)) (constantI S_ 32 1#32) (id (constantI S_ 32 8#32))

/-- The truncated remainders of the 512 positions, as a column. -/
def truncRem : IVec S512x1 32 :=
  Host.remsi (shapeCast S512x1 (iotaInDim S512 32 0) shapeCasts_S512_S512x1) (broadcastInDim S512x1 ![] bcast_S_S512x1 divisor)

/-- The floored remainders of the 512 positions, as a column. -/
def flooredCol : IVec S512x1 32 :=
  select
    (andi
      (cmpi .ne (cmpi .slt truncRem (broadcastInDim S512x1 ![] bcast_S_S512x1 (constantI S_ 32 0#32)))
        (broadcastInDim S512x1 ![] bcast_S_S512x1 (cmpi .slt divisor (constantI S_ 32 0#32))))
      (cmpi .ne truncRem (broadcastInDim S512x1 ![] bcast_S_S512x1 (constantI S_ 32 0#32))))
    (addi truncRem (broadcastInDim S512x1 ![] bcast_S_S512x1 divisor))
    truncRem

/-- The table of weights. -/
def table : FVec Ideal S512x8 .f32 :=
  select
    (cmpi .eq (broadcastInDim S512x8 ![0, 1] bcast_S512x1_S512x8_0_1 flooredCol)
      (broadcastInDim S512x8 ![0, 1] bcast_S1x8_S512x8_0_1 (shapeCast S1x8 (iotaInDim S8 32 0) shapeCasts_S8_S1x8)))
    (broadcastInDim S512x8 ![] bcast_S_S512x8 (constant (F := Ideal) S_ .f32 0x3C800000#32))
    (broadcastInDim S512x8 ![] bcast_S_S512x8 (constant (F := Ideal) S_ .f32 0x00000000#32))

variable (m : (ℓ : Loc nD τ sig) → Buf (Elt Ideal) ℓ)

/-- The row of squared norms the region finds. -/
theorem norms_entry (c : Dev nD) :
    (V m c main_v2 : S1x512.Idx → EReal)
      = shapeCast S1x512 (Host.reduceAdd (F := Ideal) (mulf (m ((c : Thread nD τ).loc main_arg1)) (m ((c : Thread nD τ).loc main_arg1)))
          (constant (F := Ideal) S_ .f32 0x00000000#32) reducesTo_S512x1024_S512_d1 h_S_) shapeCasts_S512_S1x512 := by
  dsimp only [Gen.V]
  simp only [Gen.hostOps0, Gen.hostOps0_1, Gen.hostOps0_2, Gen.hostOps0_3, List.flatten_cons, List.flatten_nil, List.append_nil,
    List.cons_append, List.nil_append]
  after_results
  rfl

set_option maxHeartbeats 4000000 in
/-- The table of weights the region finds. -/
theorem table_entry (c : Dev nD) : (V m c main_v11 : S512x8.Idx → EReal) = table := by
  dsimp only [Gen.V]
  simp only [Gen.hostOps0, Gen.hostOps0_1, Gen.hostOps0_2, Gen.hostOps0_3, List.flatten_cons, List.flatten_nil, List.append_nil,
    List.cons_append, List.nil_append]
  after_results
  rfl

/-! ## The two arrays read at an entry -/

/-- A rank-0 array spread over a column reads the one value. -/
theorem scalar_col_apply {α : Type} (v : S_.Idx → α) (p : Fin 512) :
    broadcastInDim S512x1 ![] bcast_S_S512x1 v (ix2 p (0 : Fin 1)) = v ix0 :=
  broadcastInDim_scalar_apply bcast_S_S512x1 v _

/-- Squared norm `m` of the row: the sum over the row of the squared weights. -/
theorem norms_apply (w : FVec Ideal S512x1024 .f32) (q : Fin 512) :
    shapeCast S1x512 (Host.reduceAdd (F := Ideal) (mulf w w) (constant (F := Ideal) S_ .f32 0x00000000#32)
        reducesTo_S512x1024_S512_d1 h_S_) shapeCasts_S512_S1x512 (ix2 (0 : Fin 1) q)
      = ∑ d : Fin 1024, w (ix2 q d) * w (ix2 q d) := by
  refine (shapeCast_a_1a_apply _ _ (0 : Fin 1) q).trans ?_
  refine (hostReduceAdd_apply (mulf w w) _ reducesTo_S512x1024_S512_d1 h_S_ (ix1 q)).trans ?_
  refine (Ideal.hostReduceAdd_single reducesTo_S512x1024_S512_d1 (by decide) (mulf w w) _ (ix1 q)).trans ?_
  show Ideal.ofBits .f32 0x00000000#32 + _ = _
  rw [Ideal.ofBits_zero_f32, zero_add]
  refine Finset.sum_congr rfl fun d _ => ?_
  show w _ * w _ = _
  have e : (Shape.Reduces.lift (by decide : S512x1024.Reduces [1] S512) (ix1 q) d) = ix2 q ⟨d.val, d.isLt⟩ := by
    funext ax; apply Fin.ext
    fin_cases ax <;> rfl
  rw [e]
  rfl

/-- Entry `(q, l)` of the table: 1/64 where `q ≡ l` modulo 8, else 0. -/
theorem table_apply (q : Fin 512) (l : Fin 8) : table (ix2 q l) = ProtoHead.weight q l := by
  have hcol : broadcastInDim S512x8 ![0, 1] bcast_S512x1_S512x8_0_1 flooredCol (ix2 q l) = flooredCol (ix2 q (0 : Fin 1)) :=
    broadcastInDim_apply _ bcast_S512x1_S512x8_0_1 flooredCol (ix2 q l) (ix2 q (0 : Fin 1)) (fun a => match a with
      | ⟨0, _⟩ => by show q.val = if (512 : Nat) = 1 then 0 else q.val; rw [if_neg (by decide)]
      | ⟨1, _⟩ => by show 0 = if (1 : Nat) = 1 then 0 else l.val; rw [if_pos rfl])
  have hrow : broadcastInDim S512x8 ![0, 1] bcast_S1x8_S512x8_0_1 (shapeCast S1x8 (iotaInDim S8 32 0) shapeCasts_S8_S1x8) (ix2 q l)
      = BitVec.ofNat 32 l.val :=
    (broadcastInDim_apply _ bcast_S1x8_S512x8_0_1 _ (ix2 q l) (ix2 (0 : Fin 1) l) (fun a => match a with
      | ⟨0, _⟩ => by show 0 = if (1 : Nat) = 1 then 0 else q.val; rw [if_pos rfl]
      | ⟨1, _⟩ => by show l.val = if (8 : Nat) = 1 then 0 else l.val; rw [if_neg (by decide)])).trans
      (shapeCast_a_1a_apply (iotaInDim S8 32 0) shapeCasts_S8_S1x8 (0 : Fin 1) l)
  have hpos : shapeCast S512x1 (iotaInDim S512 32 0) shapeCasts_S512_S512x1 (ix2 q (0 : Fin 1)) = BitVec.ofNat 32 q.val :=
    shapeCast_apply (iotaInDim S512 32 0) shapeCasts_S512_S512x1 _ (ix1 q) (by
      rw [Shape.rowMajor_val_one, Shape.rowMajor_val_two]
      show q.val = q.val * 1 + 0
      omega)
  have hdiv : divisor ix0 = divisorWord := rfl
  have htr : truncRem (ix2 q (0 : Fin 1)) = IntOp.remsi .host (BitVec.ofNat 32 q.val) divisorWord := by
    show IntOp.remsi .host (shapeCast S512x1 (iotaInDim S512 32 0) shapeCasts_S512_S512x1 (ix2 q (0 : Fin 1)))
      (broadcastInDim S512x1 ![] bcast_S_S512x1 divisor (ix2 q (0 : Fin 1))) = _
    rw [hpos, scalar_col_apply, hdiv]
  have hfl : flooredCol (ix2 q (0 : Fin 1)) = flooredRem (BitVec.ofNat 32 q.val) := by
    show Scalar.select
      (IntOp.andi
        (IntOp.cmpi .ne (IntOp.cmpi .slt (truncRem (ix2 q (0 : Fin 1)))
            (broadcastInDim S512x1 ![] bcast_S_S512x1 (constantI S_ 32 0#32) (ix2 q (0 : Fin 1))))
          (broadcastInDim S512x1 ![] bcast_S_S512x1 (cmpi .slt divisor (constantI S_ 32 0#32)) (ix2 q (0 : Fin 1))))
        (IntOp.cmpi .ne (truncRem (ix2 q (0 : Fin 1)))
          (broadcastInDim S512x1 ![] bcast_S_S512x1 (constantI S_ 32 0#32) (ix2 q (0 : Fin 1)))))
      (IntOp.addi (truncRem (ix2 q (0 : Fin 1))) (broadcastInDim S512x1 ![] bcast_S_S512x1 divisor (ix2 q (0 : Fin 1))))
      (truncRem (ix2 q (0 : Fin 1))) = _
    rw [htr, scalar_col_apply, scalar_col_apply, scalar_col_apply, hdiv]
    rfl
  show Scalar.select
    (IntOp.cmpi .eq (broadcastInDim S512x8 ![0, 1] bcast_S512x1_S512x8_0_1 flooredCol (ix2 q l))
      (broadcastInDim S512x8 ![0, 1] bcast_S1x8_S512x8_0_1 (shapeCast S1x8 (iotaInDim S8 32 0) shapeCasts_S8_S1x8) (ix2 q l)))
    (broadcastInDim S512x8 ![] bcast_S_S512x8 (constant (F := Ideal) S_ .f32 0x3C800000#32) (ix2 q l))
    (broadcastInDim S512x8 ![] bcast_S_S512x8 (constant (F := Ideal) S_ .f32 0x00000000#32) (ix2 q l)) = _
  rw [hcol, hrow, hfl, broadcastInDim_scalar_apply, broadcastInDim_scalar_apply]
  unfold ProtoHead.weight
  by_cases h : q.val % 8 = l.val
  · rw [(flooredRem_eq_iff q l).mpr h, select_one, if_pos h]; rfl
  · rw [eq_zero_of_ne_one (fun hh => h ((flooredRem_eq_iff q l).mp hh)), select_zero, if_neg h]; rfl

end Cert.KernelIdeal.Entry

end
-- ==== Proof.KernelHead.lean ====
/-
  The kernel's result array is the prototype head of its two arguments.

  Grid point `t` of 64 stages rows `16 t … 16 t + 15` of the hidden states and the whole of the other three
  arrays (their block index is zero on every axis), and writes back rows `16 t … 16 t + 15` of the result.
  What it writes is the body's value on those blocks, which is that block of the head (`block_value`, with
  the two prepared arrays read as the region finds them); the 64 row blocks tile the 1024 rows, row `r`
  lying in block `r / 16`; so the whole array ends holding the head.
-/
import proofs.«181166_j4252017623198_1_alg».proof.Proof.Gen.KernelIdeal.Value
import proofs.«181166_j4252017623198_1_alg».proof.Proof.BlockValue
import proofs.«181166_j4252017623198_1_alg».proof.Proof.EntryArrays

noncomputable section

open scoped BigOperators

namespace Cert.KernelIdeal.HeadValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 64 grid points: the hidden states and the result move with the
    point along the rows; the other three windows stay at block zero. -/
theorem index_maps : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The head of the two argument arrays as launched on core `c`. -/
abbrev result (c : Dev nD) : S1024x8.Idx → EReal :=
  ProtoHead.head (m ((c : Thread nD τ).loc main_arg0) : S1024x256x1024.Idx → EReal)
    (m ((c : Thread nD τ).loc main_arg1) : S512x1024.Idx → EReal)

/-- What point `t` writes back is block `t` of the head. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero zeros2]
  simp only [View.ld_unit_zero (S := S16x256x1024) zeros3, View.ld_unit_zero (S := S512x1024) zeros2,
    View.ld_unit_zero (S := S1x512) zeros2, View.ld_unit_zero (S := S512x8) zeros2]
  obtain ⟨e00, e01, e02, e10, e11, e20, e21, e30, e31, e40, e41⟩ := index_maps t
  have hN : cfg0.N = 64 := N_0
  have htl : t.val < 64 := by have := t.isLt; omega
  funext j
  revert j
  intro (j : S16x8.Idx)
  show k0_pay1 (iblk m c 0 t) (iblk m c 1 t) (iblk m c 2 t) (iblk m c 3 t) j
    = result m c (((cfg0.win 4).blk t).view.emb j)
  obtain ⟨b, l, rfl⟩ : ∃ (b : Fin 16) (l : Fin 8), j = ix2 b l := ⟨j 0, j 1, eq_ix2 j⟩
  have hemb : ((cfg0.win 4).blk t).view.emb (ix2 b l)
      = ix2 (⟨16 * t.val + b.val, by have := b.isLt; omega⟩ : Fin 1024) l := by
    funext a; apply Fin.ext
    match a with
    | ⟨0, _⟩ => show win0_4.index t (0 : Fin 2) * 16 + 1 * b.val = 16 * t.val + b.val; omega
    | ⟨1, _⟩ => show win0_4.index t (1 : Fin 2) * 8 + 1 * l.val = l.val; omega
  refine Eq.trans ?_ (congrArg (result m c) hemb).symm
  refine Body.block_value _ _ _ _ _ _ t.val htl ?_ ?_ ?_ ?_ b l
  · intro b s d
    show V m c main_arg0 (((cfg0.win 0).blk t).view.emb (ix3 b s d)) = _
    have he : ((cfg0.win 0).blk t).view.emb (ix3 b s d)
        = ix3 (⟨16 * t.val + b.val, by have := b.isLt; omega⟩ : Fin 1024) s d := by
      funext a; apply Fin.ext
      match a with
      | ⟨0, _⟩ => show win0_0.index t (0 : Fin 3) * 16 + 1 * b.val = 16 * t.val + b.val; omega
      | ⟨1, _⟩ => show win0_0.index t (1 : Fin 3) * 256 + 1 * s.val = s.val; omega
      | ⟨2, _⟩ => show win0_0.index t (2 : Fin 3) * 1024 + 1 * d.val = d.val; omega
    exact (congrArg (V m c main_arg0) he).trans (congrFun (V_main_arg0 m c) _)
  · intro q d
    show V m c main_arg1 (((cfg0.win 1).blk t).view.emb (ix2 q d)) = _
    have he : ((cfg0.win 1).blk t).view.emb (ix2 q d) = ix2 q d := by
      funext a; apply Fin.ext
      match a with
      | ⟨0, _⟩ => show win0_1.index t (0 : Fin 2) * 512 + 1 * q.val = q.val; omega
      | ⟨1, _⟩ => show win0_1.index t (1 : Fin 2) * 1024 + 1 * d.val = d.val; omega
    exact (congrArg (V m c main_arg1) he).trans (congrFun (V_main_arg1 m c) _)
  · intro q
    show V m c main_v2 (((cfg0.win 2).blk t).view.emb (ix2 (0 : Fin 1) q)) = _
    have he : ((cfg0.win 2).blk t).view.emb (ix2 (0 : Fin 1) q) = ix2 (0 : Fin 1) q := by
      funext a; apply Fin.ext
      match a with
      | ⟨0, _⟩ => show win0_2.index t (0 : Fin 2) * 1 + 1 * 0 = 0; omega
      | ⟨1, _⟩ => show win0_2.index t (1 : Fin 2) * 512 + 1 * q.val = q.val; omega
    refine (congrArg (V m c main_v2) he).trans ?_
    exact (congrFun (Entry.norms_entry m c) _).trans (Entry.norms_apply _ q)
  · intro q l
    show V m c main_v11 (((cfg0.win 3).blk t).view.emb (ix2 q l)) = _
    have he : ((cfg0.win 3).blk t).view.emb (ix2 q l) = ix2 q l := by
      funext a; apply Fin.ext
      match a with
      | ⟨0, _⟩ => show win0_3.index t (0 : Fin 2) * 512 + 1 * q.val = q.val; omega
      | ⟨1, _⟩ => show win0_3.index t (1 : Fin 2) * 8 + 1 * l.val = l.val; omega
    refine (congrArg (V m c main_v11) he).trans ?_
    exact (congrFun (Entry.table_entry m c) _).trans (Entry.table_apply q l)

/-- An index of the result array is in point `t`'s block iff each coordinate is in the block's range. -/
theorem mem_block (t : Fin cfg0.N) (i : S1024x8.Idx) :
    i ∈ ((cfg0.win 4).blk t).view.set
      ↔ ∀ a : Fin 2, win0_4.index t a * S16x8.size a ≤ (i a).val ∧ (i a).val < win0_4.index t a * S16x8.size a + S16x8.size a := by
  show i ∈ ((View.whole main_v12).slice (win0_4.rect t)).set ↔ _
  rw [View.set_slice_whole, Rect.mem_set_unit]
  exact Iff.rfl

/-- Every index of the result array is in some point's block: row `r` in block `r / 16`. -/
theorem cover (i : S1024x8.Idx) :
    ∃ t : Fin cfg0.N, (cfg0.win 4).flush t = true ∧ i ∈ ((cfg0.win 4).blk t).view.set := by
  have hN : cfg0.N = 64 := N_0
  have h0 : (i 0).val < 1024 := (i 0).isLt
  have h1 : (i 1).val < 8 := (i 1).isLt
  have ht : (i 0).val / 16 < cfg0.N := by rw [hN]; omega
  obtain ⟨-, -, -, -, -, -, -, -, -, e40, e41⟩ := index_maps ⟨(i 0).val / 16, ht⟩
  refine ⟨⟨(i 0).val / 16, ht⟩, flush0_4 _, ?_⟩
  rw [mem_block]
  intro a
  match a with
  | ⟨0, _⟩ =>
    show win0_4.index ⟨(i 0).val / 16, ht⟩ (0 : Fin 2) * 16 ≤ (i 0).val
      ∧ (i 0).val < win0_4.index ⟨(i 0).val / 16, ht⟩ (0 : Fin 2) * 16 + 16
    rw [e40]
    show (i 0).val / 16 * 16 ≤ (i 0).val ∧ (i 0).val < (i 0).val / 16 * 16 + 16
    omega
  | ⟨1, _⟩ =>
    show win0_4.index ⟨(i 0).val / 16, ht⟩ (1 : Fin 2) * 8 ≤ (i 1).val
      ∧ (i 1).val < win0_4.index ⟨(i 0).val / 16, ht⟩ (1 : Fin 2) * 8 + 8
    rw [e41]
    omega

/-- The result array after the run. -/
theorem final (c : Dev nD) : (dats m 0 c).arrAt 4 cfg0.N = result m c :=
  (dats m 0 c).arrAt_eq_of_cover 4 (result m c) (fun t _ => flushed_eq m c t) cover

/-- The kernel program's run: the result array at the head of the arguments, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.HeadValue

end
-- ==== Proof.RefHead.lean ====
/-
  The reference program computes the prototype head.

  Read one operation at a time, the reference averages the hidden states over time (a sum over the middle
  axis from the zero word, divided by 256), takes the scores `2 · (a · w) - ‖a‖² - ‖w‖²` with the two
  squared norms broadcast along the other axis, views the 512 scores of a batch row as 64 rows of 8, sums
  the 64 rows from the zero word and divides by 64.  Entry `(b, p, l)` of the 64 × 8 view is score
  `l + 8 p` of row `b`: both are position `(64 b + p) · 8 + l` in row-major order.
-/
import proofs.«181166_j4252017623198_1_alg».proof.Proof.Gen.ReferenceIdeal.Read
import proofs.«181166_j4252017623198_1_alg».proof.Proof.ProtoHead

noncomputable section

open scoped BigOperators

namespace Cert.ReferenceIdeal.RefValue

open Cert.ReferenceIdeal Cert.ReferenceIdeal.Gen Cert.ReferenceIdeal.Read Idealize.ShloMosaic Idealize.ShloMosaic.ValueIdx

/-- The averaged hidden states at `(b, d)`. -/
theorem pooled_apply (x0 : (⟨S1024x256x1024, .f32⟩ : BufTy).Contents (Elt Ideal)) (b d : Fin 1024) :
    val_main_v2 (F := Ideal) x0 (ix2 b d) = ProtoHead.pooled x0 b d := by
  have e : ∀ k : Fin 256, idx_main_v0 (ix2 b d) k = ix3 b k d := fun k =>
    funext fun a => Fin.ext (by match a with | ⟨0, _⟩ => rfl | ⟨1, _⟩ => rfl | ⟨2, _⟩ => rfl)
  rw [val_main_v2_apply, val_main_v0_apply, val_main_v1_apply, val_main_cst_apply, val_main_cst_0_apply]
  simp only [e, Ideal.hostDivf_def, Ideal.ofBits_def, Ideal.ofBits_zero_f32, zero_add]
  rfl

/-- The score of prototype `m` for batch row `b`. -/
theorem score_apply (x0 : (⟨S1024x256x1024, .f32⟩ : BufTy).Contents (Elt Ideal))
    (x1 : (⟨S512x1024, .f32⟩ : BufTy).Contents (Elt Ideal)) (b : Fin 1024) (m : Fin 512) :
    val_main_v15 (F := Ideal) x0 x1 (ix2 b m) = ProtoHead.score x0 x1 b m := by
  have el : ∀ k : Fin 1024, lidx_main_v8 (ix2 b m) k = ix2 b k := fun k =>
    funext fun a => Fin.ext (by match a with | ⟨0, _⟩ => rfl | ⟨1, _⟩ => rfl)
  have er : ∀ k : Fin 1024, ridx_main_v8 (ix2 b m) k = ix2 m k := fun k =>
    funext fun a => Fin.ext (by match a with | ⟨0, _⟩ => rfl | ⟨1, _⟩ => rfl)
  have ea : ∀ k : Fin 1024, idx_main_v4 (idx_main_v5 (idx_main_v11 (ix2 b m))) k = ix2 b k := fun k =>
    funext fun a => Fin.ext (by match a with | ⟨0, _⟩ => rfl | ⟨1, _⟩ => rfl)
  have ew : ∀ k : Fin 1024, idx_main_v7 (idx_main_v13 (idx_main_v14 (ix2 b m))) k = ix2 m k := fun k =>
    funext fun a => Fin.ext (by match a with | ⟨0, _⟩ => rfl | ⟨1, _⟩ => rfl)
  rw [val_main_v15_apply, val_main_v12_apply, val_main_v10_apply, val_main_v9_apply, val_main_cst_3_apply, val_main_v8_apply,
    val_main_v11_apply, val_main_v5_apply, val_main_v4_apply, val_main_cst_1_apply,
    val_main_v14_apply, val_main_v13_apply, val_main_v7_apply, val_main_cst_2_apply]
  simp only [el, er, ea, ew, val_main_v3_apply, val_main_v6_apply, pooled_apply, Ideal.subf_def, Ideal.mulf_def,
    Ideal.ofBits_def, Ideal.ofBits_zero_f32, zero_add]
  rfl

/-- The reference's result is the prototype head of its two arguments. -/
theorem result_eq (x0 : (⟨S1024x256x1024, .f32⟩ : BufTy).Contents (Elt Ideal))
    (x1 : (⟨S512x1024, .f32⟩ : BufTy).Contents (Elt Ideal)) :
    val_main_v19 (F := Ideal) x0 x1 = ProtoHead.head x0 x1 := by
  funext i
  obtain ⟨b, l, rfl⟩ : ∃ (b : Fin 1024) (l : Fin 8), i = ix2 b l := ⟨i 0, i 1, eq_ix2 i⟩
  have e : ∀ p : Fin 64, idx_main_v16 (idx_main_v17 (ix2 b l) p) = ix2 b (ProtoHead.protoAt p l) := fun p =>
    funext fun a => Fin.ext (by
      have hb := b.isLt; have hp := p.isLt; have hl := l.isLt
      match a with
      | ⟨0, _⟩ => show ((b.val * 64 + p.val) * 8 + l.val) / 512 = b.val; omega
      | ⟨1, _⟩ => show ((b.val * 64 + p.val) * 8 + l.val) % 512 = l.val + 8 * p.val; omega)
  rw [val_main_v19_apply, val_main_v17_apply, val_main_v18_apply, val_main_cst_4_apply, val_main_cst_5_apply]
  simp only [val_main_v16_apply, e, score_apply, Ideal.hostDivf_def, Ideal.ofBits_def, Ideal.ofBits_zero_f32, zero_add]
  rfl

end Cert.ReferenceIdeal.RefValue

end
-- ==== Proof.lean ====
/-
  A prototype head: the kernel against its reference, over the extended reals.

  Both programs average the hidden states `h : [1024, 256, 1024]` over time, `a b d = (∑ t, h b t d) / 256`,
  score each of the 512 prototypes `w m` by `2 · (a b · w m) - ‖a b‖² - ‖w m‖²`, and return for label `l` the
  mean of the scores at the 64 positions `l, l + 8, l + 16, …` of the flat prototype axis.

  The reference (one host program) takes that mean as the sum over the 64 rows of the scores viewed
  `[1024, 64, 8]`, divided by 64.  The kernel works on 64 blocks of 16 batch rows; it is handed the squared
  prototype norms and a table `S m l` that is 1/64 where `m ≡ l` modulo 8 and 0 elsewhere, both prepared by
  host operations before the launch, and returns `∑ m, score b m · S m l` over all 512 prototypes; its
  matrix product narrows both operands first, which changes nothing at the exact values.

  The two results are one function of the arguments: the products with 0 vanish (at every extended real),
  the remaining 64 positions are exactly `l + 8 p`, and the non-negative finite factor 1/64 leaves the sum;
  a division by 64 is the product with 1/64.  No other step differs: the averages, the products and the
  scores are the same expressions with the same constants on both sides, so the precondition is not used.

  `frame_Kernel` and `frame_KernelIdeal` are the generated frames; `frame_ReferenceIdeal` is the reference's
  generated run with the result dropped; `preserves_Kernel_KernelIdeal` is `True` (the idealized program is the
  kernel's own text read at the exact values); `algebraic_KernelIdeal_ReferenceIdeal` sets the kernel's run (its result array covered by the
  64 row blocks, each the head's block) beside the reference's run (its stages read one at a time).
-/
import proofs.«181166_j4252017623198_1_alg».proof.Defs
import proofs.«181166_j4252017623198_1_alg».proof.Proof.Gen.Kernel
import proofs.«181166_j4252017623198_1_alg».proof.Proof.Gen.Kernel.Skeleton
import proofs.«181166_j4252017623198_1_alg».proof.Proof.Gen.Kernel.Launch
import proofs.«181166_j4252017623198_1_alg».proof.Proof.Gen.Kernel.Points
import proofs.«181166_j4252017623198_1_alg».proof.Proof.Gen.Kernel.Frame
import proofs.«181166_j4252017623198_1_alg».proof.Proof.Gen.KernelIdeal
import proofs.«181166_j4252017623198_1_alg».proof.Proof.Gen.KernelIdeal.Skeleton
import proofs.«181166_j4252017623198_1_alg».proof.Proof.Gen.KernelIdeal.Launch
import proofs.«181166_j4252017623198_1_alg».proof.Proof.Gen.KernelIdeal.Points
import proofs.«181166_j4252017623198_1_alg».proof.Proof.Gen.KernelIdeal.Frame
import proofs.«181166_j4252017623198_1_alg».proof.Proof.Gen.ReferenceIdeal
import proofs.«181166_j4252017623198_1_alg».proof.Proof.Gen.Pre_finite_inputs
import proofs.«181166_j4252017623198_1_alg».proof.Proof.Gen.KernelIdeal.Value
import proofs.«181166_j4252017623198_1_alg».proof.Proof.Gen.ReferenceIdeal.Run
import proofs.«181166_j4252017623198_1_alg».proof.Proof.Gen.ReferenceIdeal.Read
import proofs.«181166_j4252017623198_1_alg».proof.Proof.KernelHead
import proofs.«181166_j4252017623198_1_alg».proof.Proof.RefHead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the head of its arguments, the reference's at its composed term of
    arguments that agree with them, which is the same head. -/
theorem algebraic : Cert.algebraic_KernelIdeal_ReferenceIdeal := by
  intro m ρ m' ρ' _ hagree
  refine ⟨fun c => Cert.KernelIdeal.HeadValue.result m c, Cert.KernelIdeal.HeadValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
